-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_17 : BitVec 32 := 0#32
  let v38 : BitVec 1 := Scalar.cmpi .ne v37 c0_i32_17
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  transposes_S512x1024_p1_0_S1024x512 : S512x1024.Transposes [1, 0] S1024x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .f32 = 32 ∨ (Rect.block (s := S4096x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S4096x4096, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  transposes_S4096x4096_S4096x4096_1_0 : S4096x4096.Transposes [1, 0] S4096x4096
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  Cosine-similarity attention, as functions of the argument arrays read index by index on the extended reals.

  A row of a matrix x is divided by its guarded Euclidean norm, max(√(Σ_d x[p,d]²), ε): the result is the unit row
  unitRow x p. The similarity of key row k and query row q is the inner product of their unit rows,
  sim K Q k q = Σ_d unitRow K k d · unitRow Q q d, and the weighted value of query q at column e is
  wsum K Q V q e = Σ_k sim K Q k q · V[k,e].

  Every definition is generic in the extents, so one function reads both a whole array and a block of it. A block that
  holds whole rows has the rows' norms: the unit rows of a block are those of the array (unitRow_congr), and so are
  the similarities between two blocks (sim_congr).

  The sum over the key rows may be taken eight blocks of 512 rows at a time (sum_split): addition of extended reals is
  commutative and associative, and nothing else is used. The partial sum over the first n blocks, partialBlocks,
  starts at zero, gains one block per step, and at n = 8 is the whole sum.
-/
import Idealize.ShloMosaic.Lib.ValueIdx
import Idealize.ShloMosaic.PureOps.Ideal.Laws

noncomputable section

open scoped BigOperators

namespace Cert.CosineAttention

open Idealize.ShloMosaic Idealize.ShloMosaic.ValueIdx

/-- The guarded Euclidean norm of row p: the larger of √(Σ_d x[p,d]²) and ε (the f32 word 0x322BCC77). -/
def rowNorm {a b : ℕ} (x : (⟨2, ![a, b]⟩ : Shape).Idx → EReal) (p : Fin a) : EReal :=
  max (Ideal.sqrt (∑ d : Fin b, x (ix2 p d) * x (ix2 p d))) (Ideal.ofBits .f32 0x322BCC77#32)

/-- Row p divided by its guarded norm, at column d. -/
def unitRow {a b : ℕ} (x : (⟨2, ![a, b]⟩ : Shape).Idx → EReal) (p : Fin a) (d : Fin b) : EReal :=
  Ideal.div (x (ix2 p d)) (rowNorm x p)

/-- The cosine similarity of key row k and query row q. -/
def sim {nk nq b : ℕ} (K : (⟨2, ![nk, b]⟩ : Shape).Idx → EReal) (Q : (⟨2, ![nq, b]⟩ : Shape).Idx → EReal)
    (k : Fin nk) (q : Fin nq) : EReal :=
  ∑ d : Fin b, unitRow K k d * unitRow Q q d

/-- The similarity-weighted sum of the value rows for query q, at column e. -/
def wsum {nk nq b e : ℕ} (K : (⟨2, ![nk, b]⟩ : Shape).Idx → EReal) (Q : (⟨2, ![nq, b]⟩ : Shape).Idx → EReal)
    (V : (⟨2, ![nk, e]⟩ : Shape).Idx → EReal) (q : Fin nq) (c : Fin e) : EReal :=
  ∑ k : Fin nk, sim K Q k q * V (ix2 k c)

/-- The similarity matrix of 4096 keys and 4096 queries, as an array: entry (k, q) is sim K Q k q. -/
def simArr (K Q : (⟨2, ![4096, 1024]⟩ : Shape).Idx → EReal) : (⟨2, ![4096, 4096]⟩ : Shape).Idx → EReal :=
  fun i => sim K Q (i 0) (i 1)

/-- The weighted values, as an array: entry (q, e) is wsum K Q V q e. -/
def wsumArr (K Q V : (⟨2, ![4096, 1024]⟩ : Shape).Idx → EReal) : (⟨2, ![4096, 1024]⟩ : Shape).Idx → EReal :=
  fun i => wsum K Q V (i 0) (i 1)

/-- Two matrices that agree on a row have the same unit row there. -/
theorem unitRow_congr {a a' b : ℕ} (x : (⟨2, ![a, b]⟩ : Shape).Idx → EReal) (y : (⟨2, ![a', b]⟩ : Shape).Idx → EReal)
    (p : Fin a) (p' : Fin a') (h : ∀ d : Fin b, x (ix2 p d) = y (ix2 p' d)) (d : Fin b) :
    unitRow x p d = unitRow y p' d := by
  unfold unitRow rowNorm
  rw [h d, Finset.sum_congr rfl fun d' _ => by rw [h d']]

/-- Similarities depend only on the two rows. -/
theorem sim_congr {nk nk' nq nq' b : ℕ} (K : (⟨2, ![nk, b]⟩ : Shape).Idx → EReal) (K' : (⟨2, ![nk', b]⟩ : Shape).Idx → EReal)
    (Q : (⟨2, ![nq, b]⟩ : Shape).Idx → EReal) (Q' : (⟨2, ![nq', b]⟩ : Shape).Idx → EReal)
    (k : Fin nk) (k' : Fin nk') (q : Fin nq) (q' : Fin nq')
    (hk : ∀ d : Fin b, K (ix2 k d) = K' (ix2 k' d)) (hq : ∀ d : Fin b, Q (ix2 q d) = Q' (ix2 q' d)) :
    sim K Q k q = sim K' Q' k' q' := by
  unfold sim
  exact Finset.sum_congr rfl fun d _ => by rw [unitRow_congr K K' k k' hk d, unitRow_congr Q Q' q q' hq d]

/-- Row r of block j, among 8 blocks of 512 rows. -/
def rowOf (j : Fin 8) (r : Fin 512) : Fin 4096 := ⟨512 * j.val + r.val, by have := j.isLt; have := r.isLt; omega⟩

@[simp] theorem rowOf_val (j : Fin 8) (r : Fin 512) : (rowOf j r).val = 512 * j.val + r.val := rfl

/-- A sum over 4096 rows is the sum over the 8 blocks of the sums over each block's 512 rows. -/
theorem sum_split {M : Type*} [AddCommMonoid M] (f : Fin 4096 → M) :
    ∑ k : Fin 4096, f k = ∑ j : Fin 8, ∑ r : Fin 512, f (rowOf j r) := by
  rw [← Fintype.sum_prod_type' (fun (j : Fin 8) (r : Fin 512) => f (rowOf j r))]
  refine (Equiv.sum_comp (finProdFinEquiv (m := 8) (n := 512)) f).symm.trans ?_
  refine Finset.sum_congr rfl fun p _ => congrArg f (Fin.ext ?_)
  show p.2.val + 512 * p.1.val = 512 * p.1.val + p.2.val
  omega

/-- The sum of the first n of eight block terms. -/
def partialBlocks {M : Type*} [AddCommMonoid M] (g : Fin 8 → M) (n : ℕ) : M :=
  ∑ j : Fin 8, if j.val < n then g j else 0

theorem partialBlocks_zero {M : Type*} [AddCommMonoid M] (g : Fin 8 → M) : partialBlocks g 0 = 0 := by
  unfold partialBlocks
  exact Finset.sum_eq_zero fun j _ => if_neg (Nat.not_lt_zero _)

theorem partialBlocks_succ {M : Type*} [AddCommMonoid M] (g : Fin 8 → M) (n : ℕ) (hn : n < 8) :
    partialBlocks g (n + 1) = partialBlocks g n + g ⟨n, hn⟩ := by
  unfold partialBlocks
  have hsplit : ∀ j : Fin 8, (if j.val < n + 1 then g j else 0)
      = (if j.val < n then g j else 0) + (if j = ⟨n, hn⟩ then g j else 0) := by
    intro j
    by_cases h1 : j.val < n
    · have h2 : j ≠ ⟨n, hn⟩ := fun h => by rw [h] at h1; exact Nat.lt_irrefl _ h1
      rw [if_pos (Nat.lt_succ_of_lt h1), if_pos h1, if_neg h2, add_zero]
    · by_cases h3 : j = ⟨n, hn⟩
      · rw [if_neg h1, if_pos h3, zero_add, if_pos (by rw [h3]; exact Nat.lt_succ_self n)]
      · have h4 : ¬ j.val < n + 1 := fun h => h3 (Fin.ext (by show j.val = n; omega))
        rw [if_neg h4, if_neg h1, if_neg h3, add_zero]
  rw [Finset.sum_congr rfl fun j _ => hsplit j, Finset.sum_add_distrib, Finset.sum_ite_eq' Finset.univ ⟨n, hn⟩ g,
    if_pos (Finset.mem_univ _)]

theorem partialBlocks_all {M : Type*} [AddCommMonoid M] (g : Fin 8 → M) : partialBlocks g 8 = ∑ j : Fin 8, g j := by
  unfold partialBlocks
  exact Finset.sum_congr rfl fun j _ => if_pos j.isLt

end Cert.CosineAttention

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Payload.lean ====
/-
  The body's three stored values, read at an index on the extended reals.

  The similarity block: both loaded blocks are divided row by row by their guarded norms (a lane sum of squares, a cast
  of the sums to a column, a square root, a maximum with ε, a broadcast of the column across the row), the format
  changes are the identity, and the product of the unit keys with the transposed unit queries, accumulated from zero,
  is at (kr, qr) the sum over d of unitRow k kr d · unitRow q qr d: the similarity of the two blocks' rows.

  The accumulator update: the transposed similarity block times the value block, from zero, added to what the
  accumulator held: at (qr, e) it is acc[qr,e] + Σ_kr sim k q kr qr · v[kr,e].

  The reset value is zero everywhere.
-/
import proofs.«158952_j22316650070306_1_alg».proof.Proof.Gen.KernelIdeal.Skeleton
import proofs.«158952_j22316650070306_1_alg».proof.Proof.Spec
import proofs.«158952_j22316650070306_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Cert.CosineAttention Cert.LibKeepdims
open Idealize.ShloMosaic Idealize.ShloMosaic.ValueIdx

/-! ## The two products' operand indices -/

theorem lhs_kq_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_kq_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_kq_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_kq_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem lhs_sv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_sv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_sv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_sv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- A [512,1024] by [1024,512] product from zero, at (i, j): the sum over the 1024 contracted coordinates. -/
theorem matmul_kq (l : FVec Ideal S512x1024 .bf16) (r : FVec Ideal S1024x512 .bf16) (i j : Fin 512) :
    matmul dot_S512x1024_S1024x512_S512x512_1_0_0_1_n_n none l r (constant S512x512 .f32 0x00000000#32) (ix2 i j)
      = ∑ d : Fin 1024, l (ix2 i d) * r (ix2 d j) := by
  simp only [matmul]
  rw [Ideal.matmul_constant_zero_apply, ← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  have el : dot_S512x1024_S1024x512_S512x512_1_0_0_1_n_n.lhsIdx (ix2 i j) ((contrEquiv1 dot_S512x1024_S1024x512_S512x512_1_0_0_1_n_n 1024 rfl rfl).symm d) = ix2 i d := funext fun a => Fin.ext (by
    match a with
    | ⟨0, _⟩ => exact lhs_kq_0 _ _
    | ⟨1, _⟩ => exact (lhs_kq_1 _ _).trans hd)
  have er : dot_S512x1024_S1024x512_S512x512_1_0_0_1_n_n.rhsIdx (ix2 i j) ((contrEquiv1 dot_S512x1024_S1024x512_S512x512_1_0_0_1_n_n 1024 rfl rfl).symm d) = ix2 d j := funext fun a => Fin.ext (by
    match a with
    | ⟨0, _⟩ => exact (rhs_kq_0 _ _).trans hd
    | ⟨1, _⟩ => exact rhs_kq_1 _ _)
  rw [el, er]

/-- A [512,512] by [512,1024] product from zero, at (i, j): the sum over the 512 contracted coordinates. -/
theorem matmul_sv (l : FVec Ideal S512x512 .bf16) (r : FVec Ideal S512x1024 .bf16) (i : Fin 512) (j : Fin 1024) :
    matmul dot_S512x512_S512x1024_S512x1024_1_0_0_1_n_n none l r (constant S512x1024 .f32 0x00000000#32) (ix2 i j)
      = ∑ k : Fin 512, l (ix2 i k) * r (ix2 k j) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 i j) ((contrEquiv1 dot_S512x512_S512x1024_S512x1024_1_0_0_1_n_n 512 rfl rfl).symm k) = ix2 i k := funext fun a => Fin.ext (by
    match a with
    | ⟨0, _⟩ => exact lhs_sv_0 _ _
    | ⟨1, _⟩ => exact (lhs_sv_1 _ _).trans hk)
  have er : dot_S512x512_S512x1024_S512x1024_1_0_0_1_n_n.rhsIdx (ix2 i j) ((contrEquiv1 dot_S512x512_S512x1024_S512x1024_1_0_0_1_n_n 512 rfl rfl).symm k) = ix2 k j := funext fun a => Fin.ext (by
    match a with
    | ⟨0, _⟩ => exact (rhs_sv_0 _ _).trans hk
    | ⟨1, _⟩ => exact rhs_sv_1 _ _)
  rw [el, er]

/-! ## The stored values -/

/-- A block divided row by row by its guarded norms, at (r, d), is the block's unit row there. -/
theorem unit_block (x : FVec Ideal S512x1024 .f32) (r : Fin 512) (d : Fin 1024) :
    divf x (broadcastTo S512x1024 (maximumf (sqrt (shapeCast S512x1 (multiReduction .add [1] S512 (mulf x x) 0x00000000#32 reduces_S512x1024_S512 (.inl rfl) rfl) shapeCasts_S512_S512x1)) (broadcast S512x1 (Scalar.ofBits .f32 0x322BCC77#32))) broadcasts_S512x1_S512x1024) (ix2 r d)
      = unitRow x r d := by
  rw [divf_apply, bcast_col, maximumf_apply, broadcast_apply]
  show Ideal.div (x (ix2 r d)) (max (Ideal.sqrt (shapeCast S512x1 _ shapeCasts_S512_S512x1 (ix2 r (0 : Fin 1)))) (Ideal.ofBits .f32 0x322BCC77#32)) = _
  rw [cast_vec_col]
  exact congrArg (fun s => Ideal.div (x (ix2 r d)) (max (Ideal.sqrt s) (Ideal.ofBits .f32 0x322BCC77#32)))
    (sum_row (mulf x x) reduces_S512x1024_S512 (.inl rfl) rfl r)

/-- The similarity block at (kr, qr): the similarity of key row kr and query row qr of the two loaded blocks. -/
theorem pay2_apply (q k : Vec Ideal S512x1024 .f32) (kr qr : Fin 512) :
    k0_pay2 (F := Ideal) q k (ix2 kr qr) = sim k q kr qr := by
  unfold k0_pay2
  dsimp only
  rw [matmul_kq]
  unfold sim
  refine Finset.sum_congr rfl fun d _ => ?_
  rw [truncf_apply, transpose_ix2_apply, truncf_apply, unit_block, unit_block]

/-- The accumulator update at (qr, e): what it held plus the block's similarity-weighted values. -/
theorem pay3_apply (q k v acc : Vec Ideal S512x1024 .f32) (qr : Fin 512) (e : Fin 1024) :
    k0_pay3 (F := Ideal) q k v acc (ix2 qr e) = acc (ix2 qr e) + ∑ kr : Fin 512, sim k q kr qr * v (ix2 kr e) := by
  unfold k0_pay3
  dsimp only
  rw [shapeCast_self, addf_apply, matmul_sv]
  refine congrArg (acc (ix2 qr e) + ·) (Finset.sum_congr rfl fun kr _ => ?_)
  rw [transpose_ix2_apply, truncf_apply, truncf_apply, pay2_apply]

/-- The reset value is zero. -/
theorem pay1_apply (i : S512x1024.Idx) : k0_pay1 (F := Ideal) i = 0 := by
  unfold k0_pay1
  rw [shapeCast_self, broadcast_apply]
  exact Ideal.ofBits_zero_f32

end Cert.KernelIdeal.Payload

end
-- ==== Proof.Pieces.lean ====
/-
  What each control case of the body leaves behind, as the body's stored values.

  At a query tile's first key tile the accumulator is reset to zero and then updated, so it ends at the update of
  zero; at every later key tile it ends at the update of what the tile before left. Every case stores the similarity
  block of the two loaded blocks. At the last key tile the output block is the accumulator just stored.
-/
import proofs.«158952_j22316650070306_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-! ## First key tile -/

/-- The similarity block stored at a first key tile. -/
theorem attn_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : cond0_0 i) (hc1 : ¬cond0_1 i) (x0 x1 x2 : Vec F S512x1024 .f32) :
    out0_A_4 c i arg2 harg2 arg3 harg3 arg4 harg4 arg5 harg5 arg6 harg6 arg7 harg7 hc0 hc1 x0 x1 x2 = k0_pay2 x0 x1 := by
  unfold out0_A_4
  rw [View.read_writes_eq_canon _ _ _ (cover0_A_4 c i arg2 harg2 arg3 harg3 arg4 harg4 arg5 harg5 arg6 harg6 arg7 harg7 hc0 hc1 x0 x1 x2)]
  unfold kernelRun0_A
  dsimp only
  sl_unfold_words
  rw [View.canon_unit_zero hz]
  simp only [View.readAt_eq_ld, harg2.read_unread, harg3.read_unread, harg4.read_unread, harg7.read_unread, View.ld_unit_zero (S := S512x1024) hz]

/-- The accumulator after a first key tile: the update of the zero it was just reset to. -/
theorem acc_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : cond0_0 i) (hc1 : ¬cond0_1 i) (x0 x1 x2 : Vec F S512x1024 .f32) :
    sout0_A_0 c i arg2 harg2 arg3 harg3 arg4 harg4 arg5 harg5 arg6 harg6 arg7 harg7 hc0 hc1 x0 x1 x2 = k0_pay3 x0 x1 x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg7.read_unread, View.ld_unit_zero (S := S512x1024) hz]

/-! ## Middle key tiles -/

/-- The similarity block stored at a middle key tile. -/
theorem attn_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : ¬cond0_0 i) (hc1 : ¬cond0_1 i) (x0 x1 x2 xs0 : Vec F S512x1024 .f32) :
    out0_B_4 c i arg2 harg2 arg3 harg3 arg4 harg4 arg5 harg5 arg6 harg6 arg7 harg7 hc0 hc1 x0 x1 x2 xs0 = k0_pay2 x0 x1 := by
  unfold out0_B_4
  rw [View.read_writes_eq_canon _ _ _ (cover0_B_4 c i arg2 harg2 arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg2.read_unread, harg3.read_unread, harg4.read_unread, harg7.read_unread, View.ld_unit_zero (S := S512x1024) hz]

/-- The accumulator after a middle key tile: the update of what the tile before left. -/
theorem acc_mid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : ¬cond0_0 i) (hc1 : ¬cond0_1 i) (x0 x1 x2 xs0 : Vec F S512x1024 .f32) :
    sout0_B_0 c i arg2 harg2 arg3 harg3 arg4 harg4 arg5 harg5 arg6 harg6 arg7 harg7 hc0 hc1 x0 x1 x2 xs0 = k0_pay3 x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg2.read_unread, harg3.read_unread, harg4.read_unread, harg7.read_unread, View.ld_unit_zero (S := S512x1024) hz]

/-! ## Last key tile -/

/-- The similarity block stored at a last key tile. -/
theorem attn_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : ¬cond0_0 i) (hc1 : cond0_1 i) (x0 x1 x2 xs0 : Vec F S512x1024 .f32) :
    out0_C_4 c i arg2 harg2 arg3 harg3 arg4 harg4 arg5 harg5 arg6 harg6 arg7 harg7 hc0 hc1 x0 x1 x2 xs0 = k0_pay2 x0 x1 := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.ld_unit_zero (S := S512x1024) hz]

/-- The accumulator after a last key tile: the update of what the tile before left. -/
theorem acc_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : ¬cond0_0 i) (hc1 : cond0_1 i) (x0 x1 x2 xs0 : Vec F S512x1024 .f32) :
    sout0_C_0 c i arg2 harg2 arg3 harg3 arg4 harg4 arg5 harg5 arg6 harg6 arg7 harg7 hc0 hc1 x0 x1 x2 xs0 = k0_pay3 x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.ld_unit_zero (S := S512x1024) hz]

/-- The output block stored at a last key tile: the accumulator just stored, read back. -/
theorem out_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x1024 .f32) (harg7 : arg7.IsWhole) (hc0 : ¬cond0_0 i) (hc1 : cond0_1 i) (x0 x1 x2 xs0 : Vec F S512x1024 .f32) :
    out0_C_3 c i arg2 harg2 arg3 harg3 arg4 harg4 arg5 harg5 arg6 harg6 arg7 harg7 hc0 hc1 x0 x1 x2 xs0 = k0_pay3 x0 x1 x2 xs0 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.readCov_unit_zero (S := S512x1024) _ hz, View.ld_unit_zero (S := S512x1024) hz]

end Cert.KernelIdeal.Pieces

end
-- ==== Proof.KernelValue.lean ====
/-
  What the kernel's run leaves in its two result arrays, on the extended reals.

  Point t of the 8 by 8 grid works on query tile t / 8 and key tile t % 8: it loads rows 512·(t/8) … of the queries and
  rows 512·(t%8) … of the keys and of the values. A loaded block holds whole rows of its array, so the similarity of
  two block rows is the similarity of the two array rows (the row norms are the same sums).

  The similarity block a point stores is therefore block (t%8, t/8) of the similarity matrix of the arguments, and
  the 64 blocks tile the matrix.

  The accumulator after point t holds, at (qr, e), the sum over the key tiles j ≤ t % 8 of
  Σ_kr sim K Q (512 j + kr) (512 (t/8) + qr) · V[512 j + kr, e]: it is reset and given tile 0's term at a query tile's
  first point and gains one tile's term at each later point (induction on the point). At the query tile's last point
  all eight terms are in, which is the whole sum over the 4096 key rows, and that is what the point writes to the
  output block; the eight written blocks tile the output.
-/
import proofs.«158952_j22316650070306_1_alg».proof.Proof.Gen.KernelIdeal.Value
import proofs.«158952_j22316650070306_1_alg».proof.Proof.Spec
import proofs.«158952_j22316650070306_1_alg».proof.Proof.Payload
import proofs.«158952_j22316650070306_1_alg».proof.Proof.Pieces
import Idealize.ShloMosaic.Lib.Pipeline.Value
import Idealize.ShloMosaic.Lib.ValueIdx

noncomputable section

open scoped BigOperators

namespace Cert.KernelIdeal.KValue

open Cert.KernelIdeal Cert.KernelIdeal.Gen Cert.CosineAttention Cert.KernelIdeal.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and the blocks, at their literal types -/

abbrev Qarr (c : Dev nD) : Vec Ideal S4096x1024 .f32 := V m c main_arg0
abbrev Karr (c : Dev nD) : Vec Ideal S4096x1024 .f32 := V m c main_arg1
abbrev Varr (c : Dev nD) : Vec Ideal S4096x1024 .f32 := V m c main_arg2
abbrev qblk (c : Dev nD) (t : Fin cfg0.N) : Vec Ideal S512x1024 .f32 := iblk m c 0 t
abbrev kblk (c : Dev nD) (t : Fin cfg0.N) : Vec Ideal S512x1024 .f32 := iblk m c 1 t
abbrev vblk (c : Dev nD) (t : Fin cfg0.N) : Vec Ideal S512x1024 .f32 := iblk m c 2 t

/-- The block indices of the five windows at point t: query tile t / 8, key tile t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val % 8 ∧ win0_4.index t (1 : Fin 2) = t.val / 8 :=
  (by decide +kernel : ∀ t : Fin grid0.N, _)

/-- The query tile of point t. -/
def qt (t : Fin cfg0.N) : Fin 8 := ⟨t.val / 8, by have h := t.isLt; have hN : cfg0.N = 64 := N_0; omega⟩
/-- The key tile of point t. -/
def kt (t : Fin cfg0.N) : Fin 8 := ⟨t.val % 8, Nat.mod_lt _ (by decide)⟩

theorem qblk_apply (c : Dev nD) (t : Fin cfg0.N) (r : Fin 512) (d : Fin 1024) :
    qblk m c t (ix2 r d) = Qarr m c (ix2 (rowOf (qt t) r) d) := by
  obtain ⟨e0, e1, -⟩ := idx_facts t
  show V m c main_arg0 (((cfg0.win 0).blk t).view.emb (ix2 r d)) = V m c main_arg0 (ix2 (rowOf (qt t) r) d)
  congr 1; funext a; apply Fin.ext
  match a with
  | ⟨0, _⟩ => show win0_0.index t (0 : Fin 2) * 512 + 1 * r.val = 512 * (t.val / 8) + r.val; omega
  | ⟨1, _⟩ => show win0_0.index t (1 : Fin 2) * 1024 + 1 * d.val = d.val; omega

theorem kblk_apply (c : Dev nD) (t : Fin cfg0.N) (r : Fin 512) (d : Fin 1024) :
    kblk m c t (ix2 r d) = Karr m c (ix2 (rowOf (kt t) r) d) := by
  obtain ⟨-, -, e0, e1, -⟩ := idx_facts t
  show V m c main_arg1 (((cfg0.win 1).blk t).view.emb (ix2 r d)) = V m c main_arg1 (ix2 (rowOf (kt t) r) d)
  congr 1; funext a; apply Fin.ext
  match a with
  | ⟨0, _⟩ => show win0_1.index t (0 : Fin 2) * 512 + 1 * r.val = 512 * (t.val % 8) + r.val; omega
  | ⟨1, _⟩ => show win0_1.index t (1 : Fin 2) * 1024 + 1 * d.val = d.val; omega

theorem vblk_apply (c : Dev nD) (t : Fin cfg0.N) (r : Fin 512) (d : Fin 1024) :
    vblk m c t (ix2 r d) = Varr m c (ix2 (rowOf (kt t) r) d) := by
  obtain ⟨-, -, -, -, e0, e1, -⟩ := idx_facts t
  show V m c main_arg2 (((cfg0.win 2).blk t).view.emb (ix2 r d)) = V m c main_arg2 (ix2 (rowOf (kt t) r) d)
  congr 1; funext a; apply Fin.ext
  match a with
  | ⟨0, _⟩ => show win0_2.index t (0 : Fin 2) * 512 + 1 * r.val = 512 * (t.val % 8) + r.val; omega
  | ⟨1, _⟩ => show win0_2.index t (1 : Fin 2) * 1024 + 1 * d.val = d.val; omega

/-- The similarity of two block rows is that of the array rows they are. -/
theorem sim_blk (c : Dev nD) (t : Fin cfg0.N) (kr qr : Fin 512) :
    sim (kblk m c t) (qblk m c t) kr qr = sim (Karr m c) (Qarr m c) (rowOf (kt t) kr) (rowOf (qt t) qr) :=
  sim_congr (kblk m c t) (Karr m c) (qblk m c t) (Qarr m c) kr (rowOf (kt t) kr) qr (rowOf (qt t) qr)
    (fun d => kblk_apply m c t kr d) (fun d => qblk_apply m c t qr d)

/-- What key tile j adds to the weighted value of query row (Q, qr) at column e. -/
def tileTerm (c : Dev nD) (Q : Fin 8) (qr : Fin 512) (e : Fin 1024) (j : Fin 8) : EReal :=
  ∑ kr : Fin 512, sim (Karr m c) (Qarr m c) (rowOf j kr) (rowOf Q qr) * Varr m c (ix2 (rowOf j kr) e)

theorem tile_sum (c : Dev nD) (t : Fin cfg0.N) (qr : Fin 512) (e : Fin 1024) :
    ∑ kr : Fin 512, sim (kblk m c t) (qblk m c t) kr qr * vblk m c t (ix2 kr e) = tileTerm m c (qt t) qr e (kt t) := by
  unfold tileTerm
  exact Finset.sum_congr rfl fun kr _ => by rw [sim_blk, vblk_apply]

/-! ## What each point leaves -/

/-- The similarity block a point stores, whatever its case. -/
theorem attn_eq (c : Dev nD) (t : Fin cfg0.N) :
    (outsAt0 m c t.val t.isLt).2.1 = k0_pay2 (qblk m c t) (kblk m c t) := by
  by_cases h0 : t.val % 8 = 0
  · have h1 : ¬t.val % 8 = 7 := by omega
    rw [outsAt0_A m c t h0 h1]; dsimp only
    exact Pieces.attn_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (qblk m c t) (kblk m c t) (vblk m c t)
  · by_cases h1 : t.val % 8 = 7
    · rw [outsAt0_C m c t h0 h1]; dsimp only
      exact Pieces.attn_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.2
    · rw [outsAt0_B m c t h0 h1]; dsimp only
      exact Pieces.attn_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (qblk m c t) (kblk m c t) (vblk m c t) (outsAt0 m c (t.val - 1) (Nat.lt_of_le_of_lt (Nat.sub_le _ _) t.isLt)).2.2

/-- At a last key tile the output block is the accumulator. -/
theorem out_eq_acc (c : Dev nD) (t : Fin cfg0.N) (h0 : ¬t.val % 8 = 0) (h1 : t.val % 8 = 7) :
    (outsAt0 m c t.val t.isLt).1 = (outsAt0 m c t.val t.isLt).2.2 := by
  rw [outsAt0_C m c t h0 h1]; dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.2).trans
    (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (qblk m c t) (kblk m c t) (vblk m c t) (outsAt0 m c (t.val - 1) (Nat.lt_of_le_of_lt (Nat.sub_le _ _) t.isLt)).2.2).symm

/-- THE ACCUMULATOR after point n, at (qr, e): the terms of the key tiles up to n % 8, for query tile n / 8. -/
theorem acc_eq (c : Dev nD) : ∀ (n : ℕ) (hn : n < cfg0.N) (qr : Fin 512) (e : Fin 1024),
    (outsAt0 m c n hn).2.2 (ix2 qr e) = partialBlocks (tileTerm m c (qt ⟨n, hn⟩) qr e) (n % 8 + 1) := by
  have first : ∀ (n : ℕ) (hn : n < cfg0.N) (h0 : n % 8 = 0) (qr : Fin 512) (e : Fin 1024),
      (outsAt0 m c n hn).2.2 (ix2 qr e) = partialBlocks (tileTerm m c (qt ⟨n, hn⟩) qr e) (n % 8 + 1) := by
    intro n hn h0 qr e
    have h1 : ¬n % 8 = 7 := by omega
    rw [outsAt0_A m c (⟨n, hn⟩ : Fin cfg0.N) h0 h1]; dsimp only
    refine (congrFun (Pieces.acc_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (qblk m c (⟨n, hn⟩ : Fin cfg0.N)) (kblk m c (⟨n, hn⟩ : Fin cfg0.N)) (vblk m c (⟨n, hn⟩ : Fin cfg0.N))) (ix2 qr e)).trans ?_
    rw [pay3_apply, pay1_apply, zero_add, tile_sum, h0, partialBlocks_succ _ 0 (by decide), partialBlocks_zero, zero_add]
    exact congrArg (tileTerm m c (qt (⟨n, hn⟩ : Fin cfg0.N)) qr e) (Fin.ext h0)
  intro n
  induction n with
  | zero => exact fun hn => first 0 hn rfl
  | succ k ih =>
    intro hn qr e
    have hN : cfg0.N = 64 := N_0
    by_cases h0 : (k + 1) % 8 = 0
    · exact first (k + 1) hn h0 qr e
    · have hk : k < cfg0.N := Nat.lt_of_succ_lt hn
      have hq : qt ⟨k, hk⟩ = qt (⟨k + 1, hn⟩ : Fin cfg0.N) := Fin.ext (by show k / 8 = (k + 1) / 8; omega)
      have hlt : (k + 1) % 8 < 8 := Nat.mod_lt _ (by decide)
      have step : (outsAt0 m c k hk).2.2 (ix2 qr e) + tileTerm m c (qt (⟨k + 1, hn⟩ : Fin cfg0.N)) qr e (kt (⟨k + 1, hn⟩ : Fin cfg0.N))
          = partialBlocks (tileTerm m c (qt (⟨k + 1, hn⟩ : Fin cfg0.N)) qr e) ((k + 1) % 8 + 1) := by
        rw [ih hk qr e, hq, show k % 8 + 1 = (k + 1) % 8 from by omega, partialBlocks_succ _ _ hlt]
        rfl
      by_cases h1 : (k + 1) % 8 = 7
      · rw [outsAt0_C m c (⟨k + 1, hn⟩ : Fin cfg0.N) h0 h1]; dsimp only
        refine (congrFun (Pieces.acc_last (F := Ideal) c (grid0.coords (⟨k + 1, hn⟩ : Fin cfg0.N)) (ms0_0 (⟨k + 1, hn⟩ : Fin cfg0.N)) (hs0_0 (⟨k + 1, hn⟩ : Fin cfg0.N)) (ms0_1 (⟨k + 1, hn⟩ : Fin cfg0.N)) (hs0_1 (⟨k + 1, hn⟩ : Fin cfg0.N)) (ms0_2 (⟨k + 1, hn⟩ : Fin cfg0.N)) (hs0_2 (⟨k + 1, hn⟩ : Fin cfg0.N)) (ms0_3 (⟨k + 1, hn⟩ : Fin cfg0.N)) (hs0_3 (⟨k + 1, hn⟩ : Fin cfg0.N)) (ms0_4 (⟨k + 1, hn⟩ : Fin cfg0.N)) (hs0_4 (⟨k + 1, hn⟩ : Fin cfg0.N)) scM0_0 (Memref.isWhole_whole _) (fun h => h0 ((hcond0_0 (⟨k + 1, hn⟩ : Fin cfg0.N)).mp h)) ((hcond0_1 (⟨k + 1, hn⟩ : Fin cfg0.N)).mpr h1) (qblk m c (⟨k + 1, hn⟩ : Fin cfg0.N)) (kblk m c (⟨k + 1, hn⟩ : Fin cfg0.N)) (vblk m c (⟨k + 1, hn⟩ : Fin cfg0.N)) (outsAt0 m c ((⟨k + 1, hn⟩ : Fin cfg0.N).val - 1) (Nat.lt_of_le_of_lt (Nat.sub_le _ _) (⟨k + 1, hn⟩ : Fin cfg0.N).isLt)).2.2) (ix2 qr e)).trans ?_
        rw [pay3_apply, tile_sum]
        exact step
      · rw [outsAt0_B m c (⟨k + 1, hn⟩ : Fin cfg0.N) h0 h1]; dsimp only
        refine (congrFun (Pieces.acc_mid (F := Ideal) c (grid0.coords (⟨k + 1, hn⟩ : Fin cfg0.N)) (ms0_0 (⟨k + 1, hn⟩ : Fin cfg0.N)) (hs0_0 (⟨k + 1, hn⟩ : Fin cfg0.N)) (ms0_1 (⟨k + 1, hn⟩ : Fin cfg0.N)) (hs0_1 (⟨k + 1, hn⟩ : Fin cfg0.N)) (ms0_2 (⟨k + 1, hn⟩ : Fin cfg0.N)) (hs0_2 (⟨k + 1, hn⟩ : Fin cfg0.N)) (ms0_3 (⟨k + 1, hn⟩ : Fin cfg0.N)) (hs0_3 (⟨k + 1, hn⟩ : Fin cfg0.N)) (ms0_4 (⟨k + 1, hn⟩ : Fin cfg0.N)) (hs0_4 (⟨k + 1, hn⟩ : Fin cfg0.N)) scM0_0 (Memref.isWhole_whole _) (fun h => h0 ((hcond0_0 (⟨k + 1, hn⟩ : Fin cfg0.N)).mp h)) (fun h => h1 ((hcond0_1 (⟨k + 1, hn⟩ : Fin cfg0.N)).mp h)) (qblk m c (⟨k + 1, hn⟩ : Fin cfg0.N)) (kblk m c (⟨k + 1, hn⟩ : Fin cfg0.N)) (vblk m c (⟨k + 1, hn⟩ : Fin cfg0.N)) (outsAt0 m c ((⟨k + 1, hn⟩ : Fin cfg0.N).val - 1) (Nat.lt_of_le_of_lt (Nat.sub_le _ _) (⟨k + 1, hn⟩ : Fin cfg0.N).isLt)).2.2) (ix2 qr e)).trans ?_
        rw [pay3_apply, tile_sum]
        exact step

/-! ## The similarity matrix, block by block -/

theorem emb4 (t : Fin cfg0.N) (kr qr : Fin 512) :
    ((cfg0.win 4).blk t).view.emb (ix2 kr qr) = ix2 (rowOf (kt t) kr) (rowOf (qt t) qr) := by
  obtain ⟨-, -, -, -, -, -, -, -, e0, e1⟩ := idx_facts t
  funext a; apply Fin.ext
  match a with
  | ⟨0, _⟩ => show win0_4.index t (0 : Fin 2) * 512 + 1 * kr.val = 512 * (t.val % 8) + kr.val; omega
  | ⟨1, _⟩ => show win0_4.index t (1 : Fin 2) * 512 + 1 * qr.val = 512 * (t.val / 8) + qr.val; omega

/-- WHAT POINT t WRITES BACK to the similarity matrix is its block of the similarity matrix of the arguments. -/
theorem flushed4_eq (c : Dev nD) (t : Fin cfg0.N) :
    (dats m 0 c).flushed 4 t = ((cfg0.win 4).blk t).view.read (Elt Ideal) (simArr (Karr m c) (Qarr m c)) := by
  rw [Value.flushed4, attn_eq]
  funext j
  obtain ⟨kr, qr, rfl⟩ : ∃ (kr qr : Fin 512), j = ix2 kr qr := ⟨j 0, j 1, eq_ix2 j⟩
  show k0_pay2 (qblk m c t) (kblk m c t) (ix2 kr qr) = simArr (Karr m c) (Qarr m c) (((cfg0.win 4).blk t).view.emb (ix2 kr qr))
  rw [emb4, pay2_apply, sim_blk]
  rfl

theorem mem_blk4 (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_1).slice (win0_4.rect t)).set ↔ _
  rw [View.set_slice_whole, Rect.mem_set_unit]
  exact Iff.rfl

/-- Entry (k, q) of the matrix is in the block of the point with key tile k / 512 and query tile q / 512. -/
theorem cover4 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 64 := N_0
  have hb : 8 * ((i 1).val / 512) + (i 0).val / 512 < cfg0.N := by omega
  obtain ⟨-, -, -, -, -, -, -, -, e0, e1⟩ := idx_facts ⟨8 * ((i 1).val / 512) + (i 0).val / 512, hb⟩
  refine ⟨⟨8 * ((i 1).val / 512) + (i 0).val / 512, hb⟩, flush0_4 _, ?_⟩
  rw [mem_blk4]
  intro a
  match a with
  | ⟨0, _⟩ =>
    show win0_4.index ⟨8 * ((i 1).val / 512) + (i 0).val / 512, hb⟩ (0 : Fin 2) * 512 ≤ (i 0).val ∧ (i 0).val < win0_4.index ⟨8 * ((i 1).val / 512) + (i 0).val / 512, hb⟩ (0 : Fin 2) * 512 + 512
    rw [e0]; dsimp only; omega
  | ⟨1, _⟩ =>
    show win0_4.index ⟨8 * ((i 1).val / 512) + (i 0).val / 512, hb⟩ (1 : Fin 2) * 512 ≤ (i 1).val ∧ (i 1).val < win0_4.index ⟨8 * ((i 1).val / 512) + (i 0).val / 512, hb⟩ (1 : Fin 2) * 512 + 512
    rw [e1]; dsimp only; omega

/-- THE SIMILARITY MATRIX after the run is that of the arguments. -/
theorem final4 (c : Dev nD) : (dats m 0 c).arrAt 4 cfg0.N = simArr (Karr m c) (Qarr m c) :=
  (dats m 0 c).arrAt_eq_of_cover 4 _ (fun t _ => flushed4_eq m c t) cover4

/-! ## The weighted values, block by block -/

theorem emb3 (t : Fin cfg0.N) (qr : Fin 512) (e : Fin 1024) :
    ((cfg0.win 3).blk t).view.emb (ix2 qr e) = ix2 (rowOf (qt t) qr) e := by
  obtain ⟨-, -, -, -, -, -, e0, e1, -⟩ := idx_facts t
  funext a; apply Fin.ext
  match a with
  | ⟨0, _⟩ => show win0_3.index t (0 : Fin 2) * 512 + 1 * qr.val = 512 * (t.val / 8) + qr.val; omega
  | ⟨1, _⟩ => show win0_3.index t (1 : Fin 2) * 1024 + 1 * e.val = e.val; omega

/-- WHAT A LAST KEY TILE WRITES BACK to the output is its block of the weighted values of the arguments: all eight key
    tiles' terms, which is the sum over the 4096 key rows. -/
theorem flushed3_eq (c : Dev nD) (t : Fin cfg0.N) (hf : (cfg0.win 3).flush t = true) :
    (dats m 0 c).flushed 3 t = ((cfg0.win 3).blk t).view.read (Elt Ideal) (wsumArr (Karr m c) (Qarr m c) (Varr m c)) := by
  have h1 : t.val % 8 = 7 := (flush0_3 t).mp hf
  have h0 : ¬t.val % 8 = 0 := by omega
  rw [Value.flushed3, out_eq_acc m c t h0 h1]
  funext j
  obtain ⟨qr, e, rfl⟩ : ∃ (qr : Fin 512) (e : Fin 1024), j = ix2 qr e := ⟨j 0, j 1, eq_ix2 j⟩
  show (outsAt0 m c t.val t.isLt).2.2 (ix2 qr e) = wsumArr (Karr m c) (Qarr m c) (Varr m c) (((cfg0.win 3).blk t).view.emb (ix2 qr e))
  rw [acc_eq m c t.val t.isLt qr e, emb3, h1]
  show partialBlocks (tileTerm m c (qt t) qr e) 8 = wsum (Karr m c) (Qarr m c) (Varr m c) (rowOf (qt t) qr) e
  rw [partialBlocks_all]
  unfold wsum
  rw [sum_split]
  rfl

theorem mem_blk3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

/-- Row q of the output is in the block written at the last key tile of query tile q / 512. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 64 := N_0
  have hb : 8 * ((i 0).val / 512) + 7 < cfg0.N := by omega
  obtain ⟨-, -, -, -, -, -, e0, e1, -⟩ := idx_facts ⟨8 * ((i 0).val / 512) + 7, hb⟩
  refine ⟨⟨8 * ((i 0).val / 512) + 7, hb⟩, (flush0_3 _).mpr (by show (8 * ((i 0).val / 512) + 7) % 8 = 7; omega), ?_⟩
  rw [mem_blk3]
  intro a
  match a with
  | ⟨0, _⟩ =>
    show win0_3.index ⟨8 * ((i 0).val / 512) + 7, hb⟩ (0 : Fin 2) * 512 ≤ (i 0).val ∧ (i 0).val < win0_3.index ⟨8 * ((i 0).val / 512) + 7, hb⟩ (0 : Fin 2) * 512 + 512
    rw [e0]; dsimp only; omega
  | ⟨1, _⟩ =>
    show win0_3.index ⟨8 * ((i 0).val / 512) + 7, hb⟩ (1 : Fin 2) * 1024 ≤ (i 1).val ∧ (i 1).val < win0_3.index ⟨8 * ((i 0).val / 512) + 7, hb⟩ (1 : Fin 2) * 1024 + 1024
    rw [e1]; omega

/-- THE OUTPUT after the run is the weighted values of the arguments. -/
theorem final3 (c : Dev nD) : (dats m 0 c).arrAt 3 cfg0.N = wsumArr (Karr m c) (Qarr m c) (Varr m c) :=
  (dats m 0 c).arrAt_eq_of_cover 3 _ (flushed3_eq m c) cover3

/-! ## The run, read -/

/-- The kernel's run ends with the weighted values and the similarity matrix of its arguments, the arguments unchanged. -/
theorem run : θ_run defs (onTc (τ := τ) (main (F := Ideal))) ⟨m, fun _ => 0, ρ⟩ fun r => ∀ c : Dev nD,
      r.2.mem ((c : Thread nD τ).loc main_v0_0)
        = wsumArr (m ((c : Thread nD τ).loc main_arg1)) (m ((c : Thread nD τ).loc main_arg0)) (m ((c : Thread nD τ).loc main_arg2))
      ∧ r.2.mem ((c : Thread nD τ).loc main_v0_1) = simArr (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.KValue

end
-- ==== Proof.RefValue.lean ====
/-
  The reference's two results are the similarity matrix and the weighted values of the arguments.

  The reference divides each row of the keys and of the queries by its guarded norm (a row sum from the initial value
  zero, a square root, a maximum with ε, a broadcast back over the row), multiplies the unit keys with the transposed
  unit queries, and multiplies the transposed product with the values. Read at an index, the first product at (k, q)
  is Σ_d unitRow K k d · unitRow Q q d = sim K Q k q, and the second at (q, e) is Σ_k sim K Q k q · V[k,e]
  = wsum K Q V q e.
-/
import proofs.«158952_j22316650070306_1_alg».proof.Proof.Gen.ReferenceIdeal.Read
import proofs.«158952_j22316650070306_1_alg».proof.Proof.Spec

noncomputable section

open scoped BigOperators

namespace Cert.ReferenceIdeal.RefValue

open Cert.ReferenceIdeal Cert.ReferenceIdeal.Read Cert.CosineAttention
open Idealize.ShloMosaic Idealize.ShloMosaic.ValueIdx

/-- The keys divided row by row by their guarded norms, at (k, d). -/
theorem unit_keys (x1 : (⟨S4096x1024, .f32⟩ : BufTy).Contents (Elt Ideal)) (k : Fin 4096) (d : Fin 1024) :
    val_main_v7 (F := Ideal) x1 (ix2 k d) = unitRow x1 k d := by
  have e : ∀ k' : Fin 1024, idx_main_v1 (idx_main_v2 (idx_main_v6 (ix2 k d))) k' = ix2 k k' := fun k' =>
    funext fun a => Fin.ext (by match a with | ⟨0, _⟩ => rfl | ⟨1, _⟩ => rfl)
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.maximumf_def, Ideal.hostUnary_sqrt_def, Ideal.mulf_def,
    Ideal.ofBits_def, Ideal.ofBits_zero_f32, zero_add]
  rfl

/-- The queries divided row by row by their guarded norms, at (q, d). -/
theorem unit_queries (x0 : (⟨S4096x1024, .f32⟩ : BufTy).Contents (Elt Ideal)) (q : Fin 4096) (d : Fin 1024) :
    val_main_v15 (F := Ideal) x0 (ix2 q d) = unitRow x0 q d := by
  have e : ∀ k' : Fin 1024, idx_main_v9 (idx_main_v10 (idx_main_v14 (ix2 q d))) k' = ix2 q k' := fun k' =>
    funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.maximumf_def, Ideal.hostUnary_sqrt_def, Ideal.mulf_def,
    Ideal.ofBits_def, Ideal.ofBits_zero_f32, zero_add]
  rfl

/-- The first product at (k, q) is the similarity of key row k and query row q. -/
theorem sim_at (x0 x1 : (⟨S4096x1024, .f32⟩ : BufTy).Contents (Elt Ideal)) (k q : Fin 4096) :
    val_main_v17 (F := Ideal) x0 x1 (ix2 k q) = sim x1 x0 k q := by
  have el : ∀ d : Fin 1024, lidx_main_v17 (ix2 k q) d = ix2 k d := fun d =>
    funext fun a => Fin.ext (by match a with | ⟨0, _⟩ => rfl | ⟨1, _⟩ => rfl)
  have er : ∀ d : Fin 1024, idx_main_v16 (ridx_main_v17 (ix2 k q) d) = ix2 q d := fun d =>
    funext fun a => Fin.ext (by match a with | ⟨0, _⟩ => rfl | ⟨1, _⟩ => rfl)
  rw [val_main_v17_apply]
  unfold sim
  refine Finset.sum_congr rfl fun d _ => ?_
  rw [val_main_v16_apply, el, er, unit_keys, unit_queries]

/-- The second product at (q, e) is the weighted value of query q at column e. -/
theorem wsum_at (x0 x1 x2 : (⟨S4096x1024, .f32⟩ : BufTy).Contents (Elt Ideal)) (q : Fin 4096) (e : Fin 1024) :
    val_main_v19 (F := Ideal) x0 x1 x2 (ix2 q e) = wsum x1 x0 x2 q e := by
  have el : ∀ k : Fin 4096, idx_main_v18 (lidx_main_v19 (ix2 q e) k) = ix2 k q := fun k =>
    funext fun a => Fin.ext (by match a with | ⟨0, _⟩ => rfl | ⟨1, _⟩ => rfl)
  have er : ∀ k : Fin 4096, ridx_main_v19 (ix2 q e) k = ix2 k e := fun k =>
    funext fun a => Fin.ext (by match a with | ⟨0, _⟩ => rfl | ⟨1, _⟩ => rfl)
  rw [val_main_v19_apply]
  unfold wsum
  refine Finset.sum_congr rfl fun k _ => ?_
  rw [val_main_v18_apply, el, er, sim_at]

/-- The reference's first product is the similarity matrix of the keys and the queries. -/
theorem simArr_eq (x0 x1 : (⟨S4096x1024, .f32⟩ : BufTy).Contents (Elt Ideal)) :
    val_main_v17 (F := Ideal) x0 x1 = simArr x1 x0 :=
  funext fun i => by rw [eq_ix2 i]; exact sim_at x0 x1 (i 0) (i 1)

/-- The reference's second product is the weighted values. -/
theorem wsumArr_eq (x0 x1 x2 : (⟨S4096x1024, .f32⟩ : BufTy).Contents (Elt Ideal)) :
    val_main_v19 (F := Ideal) x0 x1 x2 = wsumArr x1 x0 x2 :=
  funext fun i => by rw [eq_ix2 i]; exact wsum_at x0 x1 x2 (i 0) (i 1)

end Cert.ReferenceIdeal.RefValue

end
-- ==== Proof.lean ====
/-
  Cosine-similarity attention, tiled, against its whole-matrix form, over the extended reals.

  Both programs divide every row of the keys and of the queries by max(√(Σ_d x[p,d]²), ε), with the same word for ε;
  the similarity matrix is S[k,q] = Σ_d K̂[k,d] · Q̂[q,d] and the weighted values are W[q,e] = Σ_k S[k,q] · V[k,e].

  The tiled program walks an 8 by 8 grid of 512-row tiles. At query tile a and key tile b it loads the two tiles' rows
  whole, so the row norms it takes are the arrays' row norms, and the 512 by 512 product it stores is block (b, a) of
  S; the 64 blocks tile S. For the weighted values it keeps a 512 by 1024 accumulator per query tile: zero before key
  tile 0, plus Σ_kr S[512 b + kr, q] · V[512 b + kr, e] at key tile b, written out after key tile 7. After key tile b
  the accumulator holds the terms of tiles 0 … b (induction on the grid point), so what is written out is the sum of
  all eight tiles' terms, and a sum over 4096 rows is the sum over 8 tiles of the sums over each tile's 512 rows:
  addition of extended reals is commutative and associative, and no other law is used, so the inputs' finiteness is
  never opened. The changes of float format inside the tiled program are the identity on the extended reals, and the
  square root, quotient, maximum, lane sum and matrix products of the two programs are the same functions there.

  The whole-matrix program's two results, read one operation at a time, are S and W of its arguments; the tiled
  program's two result arrays are S and W of its arguments, block by block. The three frames are the generated runs;
  the idealization rewrote nothing.
-/
import proofs.«158952_j22316650070306_1_alg».proof.Defs
import proofs.«158952_j22316650070306_1_alg».proof.Proof.Gen.Kernel
import proofs.«158952_j22316650070306_1_alg».proof.Proof.Gen.Kernel.Frame
import proofs.«158952_j22316650070306_1_alg».proof.Proof.Gen.KernelIdeal
import proofs.«158952_j22316650070306_1_alg».proof.Proof.Gen.KernelIdeal.Frame
import proofs.«158952_j22316650070306_1_alg».proof.Proof.Gen.KernelIdeal.Value
import proofs.«158952_j22316650070306_1_alg».proof.Proof.Gen.ReferenceIdeal
import proofs.«158952_j22316650070306_1_alg».proof.Proof.Gen.ReferenceIdeal.Run
import proofs.«158952_j22316650070306_1_alg».proof.Proof.Gen.ReferenceIdeal.Read
import proofs.«158952_j22316650070306_1_alg».proof.Proof.Gen.Pre_finite_inputs
import proofs.«158952_j22316650070306_1_alg».proof.Proof.KernelValue
import proofs.«158952_j22316650070306_1_alg».proof.Proof.RefValue
import Idealize.ShloMosaic.Adequacy
import Idealize.ShloMosaic.Init

noncomputable section

namespace Cert.Proof

open Idealize.ShloMosaic Idealize.SL.Sem Cert.CosineAttention

theorem frame_tiled : Cert.frame_Kernel := fun m ρ _ => Cert.Kernel.Gen.frame m ρ

theorem frame_tiled_ideal : Cert.frame_KernelIdeal := fun m ρ _ => Cert.KernelIdeal.Gen.frame m ρ

theorem frame_whole : Cert.frame_ReferenceIdeal := fun m ρ _ =>
  (θ_run Cert.ReferenceIdeal.defs _ _).mono (fun _ h c => (h c).2.2) (Cert.ReferenceIdeal.Value.run (F := Ideal) m ρ)

/-- Both programs end with the weighted values and the similarity matrix of arguments that agree. -/
theorem same_results : Cert.algebraic_KernelIdeal_ReferenceIdeal := by
  intro m ρ m' ρ' _ hagree
  refine ⟨fun c => wsumArr (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => simArr (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v19_eq (F := Ideal) _ _ _).trans ?_
    rw [Cert.ReferenceIdeal.RefValue.wsumArr_eq, (hagree c).1, (hagree c).2.1, (hagree c).2.2]
  · refine (Cert.ReferenceIdeal.Read.val_main_v17_eq (F := Ideal) _ _).trans ?_
    rw [Cert.ReferenceIdeal.RefValue.simArr_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_tiled, frame_tiled_ideal, frame_whole, trivial, same_results⟩

end Cert.Proof

end
